-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v3) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x2048x128 : Shape := ⟨3, ![32, 2048, 128]⟩
abbrev S32x256x128 : Shape := ⟨3, ![32, 256, 128]⟩
abbrev S128x64x256 : Shape := ⟨3, ![128, 64, 256]⟩
abbrev S_ : Shape := ⟨0, ![]⟩

class Facts : Prop where
  bcast_S_S32x2048x128 : S_.BroadcastsInDim S32x2048x128 (![] : Fin 0 → Fin S32x2048x128.rank)
  reducesTo_S32x2048x128_S_d0_1_2 : S32x2048x128.ReducesTo [0, 1, 2] S_
  h_S_ : 0 < S_.numel
  bcast_S_S32x256x128 : S_.BroadcastsInDim S32x256x128 (![] : Fin 0 → Fin S32x256x128.rank)
  reducesTo_S32x256x128_S_d0_1_2 : S32x256x128.ReducesTo [0, 1, 2] S_
  bcast_S_S128x64x256 : S_.BroadcastsInDim S128x64x256 (![] : Fin 0 → Fin S128x64x256.rank)
  reducesTo_S128x64x256_S_d0_1_2 : S128x64x256.ReducesTo [0, 1, 2] S_

variable [Facts]

def fn {F : FTy → Type} [FloatOps F] (main_arg0 : FVec F S32x2048x128 .f32) (main_arg1 : FVec F S32x256x128 .f32) (main_arg2 : FVec F S128x64x256 .f32) : IVec S_ 1 :=
  let main_v0 : FVec F S32x2048x128 .f32 := Host.absf main_arg0
  let main_cst : FVec F S_ .f32 := constant S_ .f32 0x7F800000#32
  let main_v1 : FVec F S32x2048x128 .f32 := broadcastInDim S32x2048x128 ![] bcast_S_S32x2048x128 main_cst
  let main_v2 : IVec S32x2048x128 1 := cmpf .olt main_v0 main_v1
  let main_c : IVec S_ 1 := constantI S_ 1 1#1
  let main_v3 : IVec S_ 1 := (fun x v => Host.reduce IntOp.andi x v reducesTo_S32x2048x128_S_d0_1_2 h_S_) main_v2 main_c
  let main_v4 : FVec F S32x256x128 .f32 := Host.absf main_arg1
  let main_cst_0 : FVec F S_ .f32 := constant S_ .f32 0x7F800000#32
  let main_v5 : FVec F S32x256x128 .f32 := broadcastInDim S32x256x128 ![] bcast_S_S32x256x128 main_cst_0
  let main_v6 : IVec S32x256x128 1 := cmpf .olt main_v4 main_v5
  let main_c_1 : IVec S_ 1 := constantI S_ 1 1#1
  let main_v7 : IVec S_ 1 := (fun x v => Host.reduce IntOp.andi x v reducesTo_S32x256x128_S_d0_1_2 h_S_) main_v6 main_c_1
  let main_v8 : IVec S_ 1 := andi main_v3 main_v7
  let main_v9 : FVec F S128x64x256 .f32 := Host.absf main_arg2
  let main_cst_2 : FVec F S_ .f32 := constant S_ .f32 0x7F800000#32
  let main_v10 : FVec F S128x64x256 .f32 := broadcastInDim S128x64x256 ![] bcast_S_S128x64x256 main_cst_2
  let main_v11 : IVec S128x64x256 1 := cmpf .olt main_v9 main_v10
  let main_c_3 : IVec S_ 1 := constantI S_ 1 1#1
  let main_v12 : IVec S_ 1 := (fun x v => Host.reduce IntOp.andi x v reducesTo_S128x64x256_S_d0_1_2 h_S_) main_v11 main_c_3
  let main_v13 : IVec S_ 1 := andi main_v8 main_v12
  main_v13
-- ==== Kernel.lean ====
abbrev S32x2048x128 : Shape := ⟨3, ![32, 2048, 128]⟩
abbrev S32x256x128 : Shape := ⟨3, ![32, 256, 128]⟩
abbrev S128x64x256 : Shape := ⟨3, ![128, 64, 256]⟩
abbrev S_ : Shape := ⟨0, ![]⟩
abbrev S128x256 : Shape := ⟨2, ![128, 256]⟩
abbrev S32x2048x2048 : Shape := ⟨3, ![32, 2048, 2048]⟩
abbrev S1x2048x128 : Shape := ⟨3, ![1, 2048, 128]⟩
abbrev S1x256x128 : Shape := ⟨3, ![1, 256, 128]⟩
abbrev S1x512x2048 : Shape := ⟨3, ![1, 512, 2048]⟩
abbrev S2048x128 : Shape := ⟨2, ![2048, 128]⟩
abbrev S2048x256 : Shape := ⟨2, ![2048, 256]⟩
abbrev S256x128 : Shape := ⟨2, ![256, 128]⟩
abbrev S1x512x128 : Shape := ⟨3, ![1, 512, 128]⟩
abbrev S512x128 : Shape := ⟨2, ![512, 128]⟩
abbrev S512x2048 : Shape := ⟨2, ![512, 2048]⟩

abbrev nBuf : Space → Nat
  | .hbm => 6
  | .vmem => 8
  | .smem => 0
  | _ => 0

abbrev bufTy : (tb : Table) → Fin (tcTables nBuf tb) → BufTy
  | .hbm, ⟨0, _⟩ => ⟨S32x2048x128, .f32⟩
  | .hbm, ⟨1, _⟩ => ⟨S32x256x128, .f32⟩
  | .hbm, ⟨2, _⟩ => ⟨S128x64x256, .f32⟩
  | .hbm, ⟨3, _⟩ => ⟨S_, .f32⟩
  | .hbm, ⟨4, _⟩ => ⟨S128x256, .f32⟩
  | .hbm, ⟨5, _⟩ => ⟨S32x2048x2048, .f32⟩
  | .local _ .vmem, ⟨0, _⟩ => ⟨S1x2048x128, .f32⟩
  | .local _ .vmem, ⟨1, _⟩ => ⟨S1x2048x128, .f32⟩
  | .local _ .vmem, ⟨2, _⟩ => ⟨S1x256x128, .f32⟩
  | .local _ .vmem, ⟨3, _⟩ => ⟨S1x256x128, .f32⟩
  | .local _ .vmem, ⟨4, _⟩ => ⟨S128x256, .f32⟩
  | .local _ .vmem, ⟨5, _⟩ => ⟨S1x512x2048, .f32⟩
  | .local _ .vmem, ⟨6, _⟩ => ⟨S1x512x2048, .f32⟩
  | .local _ .vmem, ⟨7, _⟩ => ⟨S2048x128, .bf16⟩
  | _, _ => ⟨S32x2048x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![32, 4], ![false, false]⟩

def k0_mult1 (i : grid0.Coords) : BitVec 32 :=
  let arg1 : BitVec 32 := BitVec.ofNat 32 (i 1).val
  let c512_i32 : BitVec 32 := 512#32
  let v3 : BitVec 32 := Scalar.muli arg1 c512_i32
  v3
def k0_off1 (i : grid0.Coords) : Fin 3 → Nat :=
  let c0 : Index := 0#32
  let arg1 : BitVec 32 := BitVec.ofNat 32 (i 1).val
  let c512_i32 : BitVec 32 := 512#32
  let v3 : BitVec 32 := Scalar.muli arg1 c512_i32
  let v4 : BitVec 32 := v3
  let v5 : Index := Scalar.indexCast v4
  let c0_1 : Index := 0#32
  ![0, v5.toNat, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x256x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S128x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  reducesTo_S128x64x256_S128x256_d1 : S128x64x256.ReducesTo [1] S128x256
  h_S_ : 0 < S_.numel
  inb_S1x2048x128_S1x2048x128_0_0_0 : ∀ a, (![0, 0, 0] : Fin 3 → Nat) a + S1x2048x128.size a ≤ S1x2048x128.size a
  h_S1x2048x128 : 0 < S1x2048x128.numel
  shapeCasts_S1x2048x128_S2048x128 : S1x2048x128.ShapeCasts S2048x128
  bitsLt_bf16_f32 : FTy.bits .bf16 < FTy.bits .f32
  inb_S128x256_S128x256_0_0 : ∀ a, (![0, 0] : Fin 2 → Nat) a + S128x256.size a ≤ S128x256.size a
  h_S128x256 : 0 < S128x256.numel
  shapeCasts_S128x256_S128x256 : S128x256.ShapeCasts S128x256
  inb_S1x256x128_S1x256x128_0_0_0 : ∀ a, (![0, 0, 0] : Fin 3 → Nat) a + S1x256x128.size a ≤ S1x256x128.size a
  h_S1x256x128 : 0 < S1x256x128.numel
  shapeCasts_S1x256x128_S256x128 : S1x256x128.ShapeCasts S256x128
  inb_S2048x128_S2048x128_0_0 : ∀ a, (![0, 0] : Fin 2 → Nat) a + S2048x128.size a ≤ S2048x128.size a
  h_S2048x128 : 0 < S2048x128.numel
  shapeCasts_S2048x128_S2048x128 : S2048x128.ShapeCasts S2048x128
  packedbf16_S2048x128_S2048x128_0_0 : (Rect.unit (s := S2048x128) ![0, 0] S2048x128.size inb_S2048x128_S2048x128_0_0).PackedRows (EltTy.packing .bf16)
  h_S1x512x128 : 0 < S1x512x128.numel
  shapeCasts_S1x512x128_S512x128 : S1x512x128.ShapeCasts S512x128
  inb_S1x512x2048_S1x512x2048_0_0_0 : ∀ a, (![0, 0, 0] : Fin 3 → Nat) a + S1x512x2048.size a ≤ S1x512x2048.size a
  h_S1x512x2048 : 0 < S1x512x2048.numel
  shapeCasts_S1x512x2048_S512x2048 : S1x512x2048.ShapeCasts S512x2048
  shapeCasts_S512x2048_S1x512x2048 : S512x2048.ShapeCasts S1x512x2048
  dot_S2048x128_S128x256_S2048x256_1_0_0_1_n_n_wf : DotDims.WF S2048x128 S128x256 S2048x256 [1] [0] [0] [1] [] []
  dot_S2048x256_S256x128_S2048x128_1_0_0_1_n_n_wf : DotDims.WF S2048x256 S256x128 S2048x128 [1] [0] [0] [1] [] []
  dot_S512x128_S2048x128_S512x2048_1_1_0_0_n_n_wf : DotDims.WF S512x128 S2048x128 S512x2048 [1] [1] [0] [0] [] []
  hrank0 : 0 < grid0.rank
  k0_mult1_dvd : ∀ i : grid0.Coords, 512 ∣ (k0_mult1 i).toNat
  k0_off1_inb : ∀ i : grid0.Coords, ∀ a, (k0_off1 i) a + S1x512x128.size a ≤ S1x2048x128.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x2048x128.size a ≤ S32x2048x128.size a
  hwx0_0 : ∀ i : grid0.Coords, EltTy.bits .f32 = 32 ∨ (Rect.block (s := S32x2048x128) S1x2048x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x256x128.size a ≤ S32x256x128.size a
  hwx0_1 : ∀ i : grid0.Coords, EltTy.bits .f32 = 32 ∨ (Rect.block (s := S32x256x128) S1x256x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x256.size a ≤ S128x256.size a
  hwx0_2 : ∀ i : grid0.Coords, EltTy.bits .f32 = 32 ∨ (Rect.block (s := S128x256) S128x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x512x2048.size a ≤ S32x2048x2048.size a
  hwx0_3 : ∀ i : grid0.Coords, EltTy.bits .f32 = 32 ∨ (Rect.block (s := S32x2048x2048) S1x512x2048.size (cc0_transform_3 i) (hinb0_3 i)).WholeWords (EltTy.packing .f32)

variable [Facts₀]

def dot_S2048x128_S128x256_S2048x256_1_0_0_1_n_n : DotDims S2048x128 S128x256 S2048x256 where
  lhsContracting := [1]
  rhsContracting := [0]
  lhsNonContracting := [0]
  rhsNonContracting := [1]
  lhsBatch := []
  rhsBatch := []
  wf := dot_S2048x128_S128x256_S2048x256_1_0_0_1_n_n_wf
def dot_S2048x256_S256x128_S2048x128_1_0_0_1_n_n : DotDims S2048x256 S256x128 S2048x128 where
  lhsContracting := [1]
  rhsContracting := [0]
  lhsNonContracting := [0]
  rhsNonContracting := [1]
  lhsBatch := []
  rhsBatch := []
  wf := dot_S2048x256_S256x128_S2048x128_1_0_0_1_n_n_wf
def dot_S512x128_S2048x128_S512x2048_1_1_0_0_n_n : DotDims S512x128 S2048x128 S512x2048 where
  lhsContracting := [1]
  rhsContracting := [1]
  lhsNonContracting := [0]
  rhsNonContracting := [0]
  lhsBatch := []
  rhsBatch := []
  wf := dot_S512x128_S2048x128_S512x2048_1_1_0_0_n_n_wf

abbrev win0_0 : Pipeline.Window sig grid0 :=
  Pipeline.Window.ofSpec (Memref.whole main_arg0) S1x2048x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x256x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S128x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1x512x2048.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S32x2048x128 : Shape := ⟨3, ![32, 2048, 128]⟩
abbrev S32x256x128 : Shape := ⟨3, ![32, 256, 128]⟩
abbrev S128x64x256 : Shape := ⟨3, ![128, 64, 256]⟩
abbrev S_ : Shape := ⟨0, ![]⟩
abbrev S128x256 : Shape := ⟨2, ![128, 256]⟩
abbrev S32x2048x256 : Shape := ⟨3, ![32, 2048, 256]⟩
abbrev S32x2048x2048 : Shape := ⟨3, ![32, 2048, 2048]⟩

abbrev nBuf : Space → Nat
  | .hbm => 8
  | .vmem => 0
  | .smem => 0
  | _ => 0

abbrev bufTy : (tb : Table) → Fin (tcTables nBuf tb) → BufTy
  | .hbm, ⟨0, _⟩ => ⟨S32x2048x128, .f32⟩
  | .hbm, ⟨1, _⟩ => ⟨S32x256x128, .f32⟩
  | .hbm, ⟨2, _⟩ => ⟨S128x64x256, .f32⟩
  | .hbm, ⟨3, _⟩ => ⟨S_, .f32⟩
  | .hbm, ⟨4, _⟩ => ⟨S128x256, .f32⟩
  | .hbm, ⟨5, _⟩ => ⟨S32x2048x256, .f32⟩
  | .hbm, ⟨6, _⟩ => ⟨S32x2048x128, .f32⟩
  | .hbm, ⟨7, _⟩ => ⟨S32x2048x2048, .f32⟩
  | _, _ => ⟨S32x2048x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩

abbrev nD : Nat := 1
abbrev τ : Topo := Topo.v7x

variable {F : FTy → Type} [FloatOps F]

class Facts₀ : Prop where
  reducesTo_S128x64x256_S128x256_d1 : S128x64x256.ReducesTo [1] S128x256
  h_S_ : 0 < S_.numel
  dot_S32x2048x128_S128x256_S32x2048x256_2_0_01_1_n_n_wf : DotDims.WF S32x2048x128 S128x256 S32x2048x256 [2] [0] [0, 1] [1] [] []
  dot_S32x2048x256_S32x256x128_S32x2048x128_2_1_1_2_0_0_wf : DotDims.WF S32x2048x256 S32x256x128 S32x2048x128 [2] [1] [1] [2] [0] [0]
  dot_S32x2048x128_S32x2048x128_S32x2048x2048_2_2_1_1_0_0_wf : DotDims.WF S32x2048x128 S32x2048x128 S32x2048x2048 [2] [2] [1] [1] [0] [0]

variable [Facts₀]

def dot_S32x2048x128_S128x256_S32x2048x256_2_0_01_1_n_n : DotDims S32x2048x128 S128x256 S32x2048x256 where
  lhsContracting := [2]
  rhsContracting := [0]
  lhsNonContracting := [0, 1]
  rhsNonContracting := [1]
  lhsBatch := []
  rhsBatch := []
  wf := dot_S32x2048x128_S128x256_S32x2048x256_2_0_01_1_n_n_wf
def dot_S32x2048x256_S32x256x128_S32x2048x128_2_1_1_2_0_0 : DotDims S32x2048x256 S32x256x128 S32x2048x128 where
  lhsContracting := [2]
  rhsContracting := [1]
  lhsNonContracting := [1]
  rhsNonContracting := [2]
  lhsBatch := [0]
  rhsBatch := [0]
  wf := dot_S32x2048x256_S32x256x128_S32x2048x128_2_1_1_2_0_0_wf
def dot_S32x2048x128_S32x2048x128_S32x2048x2048_2_2_1_1_0_0 : DotDims S32x2048x128 S32x2048x128 S32x2048x2048 where
  lhsContracting := [2]
  rhsContracting := [2]
  lhsNonContracting := [1]
  rhsNonContracting := [1]
  lhsBatch := [0]
  rhsBatch := [0]
  wf := dot_S32x2048x128_S32x2048x128_S32x2048x2048_2_2_1_1_0_0_wf

class Facts : Prop extends Facts₀ where

variable [Facts]
-- ==== Proof.TileProducts.lean ====
/-
  The kernel's three matrix products, each read at one output index as a sum over its contracted axis.

  At the ideal instance a `tpu.matmul` into a zero accumulator is the plain sum of products over the contraction index;
  the contraction index of each of the three dimension records has one axis, so the sum re-indexes to a sum over
  `Fin K` with the operands read at explicit coordinates:

    scores tile  [2048,128] × [128,256] → [2048,256] :  out (p, a) = ∑ n, lhs (p, n) · rhs (n, a)
    memory tile  [2048,256] × [256,128] → [2048,128] :  out (p, d) = ∑ a, lhs (p, a) · rhs (a, d)
    readout tile [512,128] × [2048,128]ᵀ → [512,2048] : out (p, r) = ∑ n, lhs (p, n) · rhs (r, n)
-/
import proofs.«174124_j86887188398971_1_alg».proof.Proof.Gen.KernelIdeal
import Idealize.ShloMosaic.Lib.ValueIdx
import Idealize.ShloMosaic.PureOps.Ideal.Laws

noncomputable section

namespace Cert.KernelIdeal.Tiles

open Cert.KernelIdeal Cert.KernelIdeal.Gen Idealize.ShloMosaic Idealize.ShloMosaic.ValueIdx

/-! ## The scores product: axis 1 of the left operand against axis 0 of the right -/

theorem lhs_s_0 (i : S2048x256.Idx) (q : dot_S2048x128_S128x256_S2048x256_1_0_0_1_n_n.contr.Idx) :
    (dot_S2048x128_S128x256_S2048x256_1_0_0_1_n_n.lhsIdx i q 0).val = (i 0).val := by
  unfold DotDims.lhsIdx
  rw [dif_neg (show ¬(0 : Fin S2048x128.rank) ∈ dot_S2048x128_S128x256_S2048x256_1_0_0_1_n_n.lhsBatch by decide), dif_pos (show (0 : Fin S2048x128.rank) ∈ dot_S2048x128_S128x256_S2048x256_1_0_0_1_n_n.lhsNonContracting by decide)]
  rfl
theorem lhs_s_1 (i : S2048x256.Idx) (q : dot_S2048x128_S128x256_S2048x256_1_0_0_1_n_n.contr.Idx) :
    (dot_S2048x128_S128x256_S2048x256_1_0_0_1_n_n.lhsIdx i q 1).val = (q ⟨0, by decide⟩).val :=
  dot_S2048x128_S128x256_S2048x256_1_0_0_1_n_n.lhsIdx_val_of_single rfl i q
theorem rhs_s_0 (i : S2048x256.Idx) (q : dot_S2048x128_S128x256_S2048x256_1_0_0_1_n_n.contr.Idx) :
    (dot_S2048x128_S128x256_S2048x256_1_0_0_1_n_n.rhsIdx i q 0).val = (q ⟨0, by decide⟩).val :=
  dot_S2048x128_S128x256_S2048x256_1_0_0_1_n_n.rhsIdx_val_of_single rfl i q
theorem rhs_s_1 (i : S2048x256.Idx) (q : dot_S2048x128_S128x256_S2048x256_1_0_0_1_n_n.contr.Idx) :
    (dot_S2048x128_S128x256_S2048x256_1_0_0_1_n_n.rhsIdx i q 1).val = (i 1).val := by
  unfold DotDims.rhsIdx
  rw [dif_neg (show ¬(1 : Fin S128x256.rank) ∈ dot_S2048x128_S128x256_S2048x256_1_0_0_1_n_n.rhsBatch by decide), dif_pos (show (1 : Fin S128x256.rank) ∈ dot_S2048x128_S128x256_S2048x256_1_0_0_1_n_n.rhsNonContracting by decide)]
  rfl

theorem scores_tile_apply {φ₁ φ₂ : FTy} (l : FVec Ideal S2048x128 φ₁) (r : FVec Ideal S128x256 φ₂) (p : Fin 2048) (a : Fin 256) :
    matmul dot_S2048x128_S128x256_S2048x256_1_0_0_1_n_n none l r (constant S2048x256 .f32 0x00000000#32) (ix2 p a)
      = ∑ n : Fin 128, l (ix2 p n) * r (ix2 n a) := by
  simp only [matmul]
  rw [Ideal.matmul_constant_zero_apply, ← Equiv.sum_comp (contrEquiv1 dot_S2048x128_S128x256_S2048x256_1_0_0_1_n_n 128 rfl rfl).symm]
  refine Finset.sum_congr rfl fun k _ => ?_
  have hk := contrEquiv1_symm_val dot_S2048x128_S128x256_S2048x256_1_0_0_1_n_n 128 rfl rfl k
  have el : dot_S2048x128_S128x256_S2048x256_1_0_0_1_n_n.lhsIdx (ix2 p a) ((contrEquiv1 dot_S2048x128_S128x256_S2048x256_1_0_0_1_n_n 128 rfl rfl).symm k) = ix2 p k := funext fun x => Fin.ext (by
    match x with
    | ⟨0, _⟩ => exact lhs_s_0 _ _
    | ⟨1, _⟩ => exact (lhs_s_1 _ _).trans hk)
  have er : dot_S2048x128_S128x256_S2048x256_1_0_0_1_n_n.rhsIdx (ix2 p a) ((contrEquiv1 dot_S2048x128_S128x256_S2048x256_1_0_0_1_n_n 128 rfl rfl).symm k) = ix2 k a := funext fun x => Fin.ext (by
    match x with
    | ⟨0, _⟩ => exact (rhs_s_0 _ _).trans hk
    | ⟨1, _⟩ => exact rhs_s_1 _ _)
  rw [el, er]

/-! ## The memory product: the same arrangement, 256 actions contracted -/

theorem lhs_m_0 (i : S2048x128.Idx) (q : dot_S2048x256_S256x128_S2048x128_1_0_0_1_n_n.contr.Idx) :
    (dot_S2048x256_S256x128_S2048x128_1_0_0_1_n_n.lhsIdx i q 0).val = (i 0).val := by
  unfold DotDims.lhsIdx
  rw [dif_neg (show ¬(0 : Fin S2048x256.rank) ∈ dot_S2048x256_S256x128_S2048x128_1_0_0_1_n_n.lhsBatch by decide), dif_pos (show (0 : Fin S2048x256.rank) ∈ dot_S2048x256_S256x128_S2048x128_1_0_0_1_n_n.lhsNonContracting by decide)]
  rfl
theorem lhs_m_1 (i : S2048x128.Idx) (q : dot_S2048x256_S256x128_S2048x128_1_0_0_1_n_n.contr.Idx) :
    (dot_S2048x256_S256x128_S2048x128_1_0_0_1_n_n.lhsIdx i q 1).val = (q ⟨0, by decide⟩).val :=
  dot_S2048x256_S256x128_S2048x128_1_0_0_1_n_n.lhsIdx_val_of_single rfl i q
theorem rhs_m_0 (i : S2048x128.Idx) (q : dot_S2048x256_S256x128_S2048x128_1_0_0_1_n_n.contr.Idx) :
    (dot_S2048x256_S256x128_S2048x128_1_0_0_1_n_n.rhsIdx i q 0).val = (q ⟨0, by decide⟩).val :=
  dot_S2048x256_S256x128_S2048x128_1_0_0_1_n_n.rhsIdx_val_of_single rfl i q
theorem rhs_m_1 (i : S2048x128.Idx) (q : dot_S2048x256_S256x128_S2048x128_1_0_0_1_n_n.contr.Idx) :
    (dot_S2048x256_S256x128_S2048x128_1_0_0_1_n_n.rhsIdx i q 1).val = (i 1).val := by
  unfold DotDims.rhsIdx
  rw [dif_neg (show ¬(1 : Fin S256x128.rank) ∈ dot_S2048x256_S256x128_S2048x128_1_0_0_1_n_n.rhsBatch by decide), dif_pos (show (1 : Fin S256x128.rank) ∈ dot_S2048x256_S256x128_S2048x128_1_0_0_1_n_n.rhsNonContracting by decide)]
  rfl

theorem memory_tile_apply {φ₁ φ₂ : FTy} (l : FVec Ideal S2048x256 φ₁) (r : FVec Ideal S256x128 φ₂) (p : Fin 2048) (d : Fin 128) :
    matmul dot_S2048x256_S256x128_S2048x128_1_0_0_1_n_n none l r (constant S2048x128 .f32 0x00000000#32) (ix2 p d)
      = ∑ a : Fin 256, l (ix2 p a) * r (ix2 a d) := by
  simp only [matmul]
  rw [Ideal.matmul_constant_zero_apply, ← Equiv.sum_comp (contrEquiv1 dot_S2048x256_S256x128_S2048x128_1_0_0_1_n_n 256 rfl rfl).symm]
  refine Finset.sum_congr rfl fun k _ => ?_
  have hk := contrEquiv1_symm_val dot_S2048x256_S256x128_S2048x128_1_0_0_1_n_n 256 rfl rfl k
  have el : dot_S2048x256_S256x128_S2048x128_1_0_0_1_n_n.lhsIdx (ix2 p d) ((contrEquiv1 dot_S2048x256_S256x128_S2048x128_1_0_0_1_n_n 256 rfl rfl).symm k) = ix2 p k := funext fun x => Fin.ext (by
    match x with
    | ⟨0, _⟩ => exact lhs_m_0 _ _
    | ⟨1, _⟩ => exact (lhs_m_1 _ _).trans hk)
  have er : dot_S2048x256_S256x128_S2048x128_1_0_0_1_n_n.rhsIdx (ix2 p d) ((contrEquiv1 dot_S2048x256_S256x128_S2048x128_1_0_0_1_n_n 256 rfl rfl).symm k) = ix2 k d := funext fun x => Fin.ext (by
    match x with
    | ⟨0, _⟩ => exact (rhs_m_0 _ _).trans hk
    | ⟨1, _⟩ => exact rhs_m_1 _ _)
  rw [el, er]

/-! ## The readout product: the last axes of both operands contracted (the right operand transposed) -/

theorem lhs_r_0 (i : S512x2048.Idx) (q : dot_S512x128_S2048x128_S512x2048_1_1_0_0_n_n.contr.Idx) :
    (dot_S512x128_S2048x128_S512x2048_1_1_0_0_n_n.lhsIdx i q 0).val = (i 0).val := by
  unfold DotDims.lhsIdx
  rw [dif_neg (show ¬(0 : Fin S512x128.rank) ∈ dot_S512x128_S2048x128_S512x2048_1_1_0_0_n_n.lhsBatch by decide), dif_pos (show (0 : Fin S512x128.rank) ∈ dot_S512x128_S2048x128_S512x2048_1_1_0_0_n_n.lhsNonContracting by decide)]
  rfl
theorem lhs_r_1 (i : S512x2048.Idx) (q : dot_S512x128_S2048x128_S512x2048_1_1_0_0_n_n.contr.Idx) :
    (dot_S512x128_S2048x128_S512x2048_1_1_0_0_n_n.lhsIdx i q 1).val = (q ⟨0, by decide⟩).val :=
  dot_S512x128_S2048x128_S512x2048_1_1_0_0_n_n.lhsIdx_val_of_single rfl i q
theorem rhs_r_0 (i : S512x2048.Idx) (q : dot_S512x128_S2048x128_S512x2048_1_1_0_0_n_n.contr.Idx) :
    (dot_S512x128_S2048x128_S512x2048_1_1_0_0_n_n.rhsIdx i q 0).val = (i 1).val := by
  unfold DotDims.rhsIdx
  rw [dif_neg (show ¬(0 : Fin S2048x128.rank) ∈ dot_S512x128_S2048x128_S512x2048_1_1_0_0_n_n.rhsBatch by decide), dif_pos (show (0 : Fin S2048x128.rank) ∈ dot_S512x128_S2048x128_S512x2048_1_1_0_0_n_n.rhsNonContracting by decide)]
  rfl
theorem rhs_r_1 (i : S512x2048.Idx) (q : dot_S512x128_S2048x128_S512x2048_1_1_0_0_n_n.contr.Idx) :
    (dot_S512x128_S2048x128_S512x2048_1_1_0_0_n_n.rhsIdx i q 1).val = (q ⟨0, by decide⟩).val :=
  dot_S512x128_S2048x128_S512x2048_1_1_0_0_n_n.rhsIdx_val_of_single rfl i q

theorem readout_tile_apply {φ₁ φ₂ : FTy} (l : FVec Ideal S512x128 φ₁) (r : FVec Ideal S2048x128 φ₂) (p : Fin 512) (s : Fin 2048) :
    matmul dot_S512x128_S2048x128_S512x2048_1_1_0_0_n_n none l r (constant S512x2048 .f32 0x00000000#32) (ix2 p s)
      = ∑ n : Fin 128, l (ix2 p n) * r (ix2 s n) := by
  simp only [matmul]
  rw [Ideal.matmul_constant_zero_apply, ← Equiv.sum_comp (contrEquiv1 dot_S512x128_S2048x128_S512x2048_1_1_0_0_n_n 128 rfl rfl).symm]
  refine Finset.sum_congr rfl fun k _ => ?_
  have hk := contrEquiv1_symm_val dot_S512x128_S2048x128_S512x2048_1_1_0_0_n_n 128 rfl rfl k
  have el : dot_S512x128_S2048x128_S512x2048_1_1_0_0_n_n.lhsIdx (ix2 p s) ((contrEquiv1 dot_S512x128_S2048x128_S512x2048_1_1_0_0_n_n 128 rfl rfl).symm k) = ix2 p k := funext fun x => Fin.ext (by
    match x with
    | ⟨0, _⟩ => exact lhs_r_0 _ _
    | ⟨1, _⟩ => exact (lhs_r_1 _ _).trans hk)
  have er : dot_S512x128_S2048x128_S512x2048_1_1_0_0_n_n.rhsIdx (ix2 p s) ((contrEquiv1 dot_S512x128_S2048x128_S512x2048_1_1_0_0_n_n 128 rfl rfl).symm k) = ix2 s k := funext fun x => Fin.ext (by
    match x with
    | ⟨0, _⟩ => exact rhs_r_0 _ _
    | ⟨1, _⟩ => exact (rhs_r_1 _ _).trans hk)
  rw [el, er]

end Cert.KernelIdeal.Tiles

end
-- ==== Proof.PointValues.lean ====
/-
  What one grid point leaves behind, as values.

  The body at a point whose row-tile coordinate is zero first stores into the scratch buffer the memory tile of the whole
  batch — the product of the key block with the summed weights, then with the value block — and then, at every point, stores
  into the output block the product of the key block's 512-row slice with the scratch buffer's contents (transposed).
  Here each case's stores are read back as those payloads of the blocks the point was given, and each payload is read
  at one index as the nested sums it is.
-/
import proofs.«174124_j86887188398971_1_alg».proof.Proof.Gen.KernelIdeal.Frame
import proofs.«174124_j86887188398971_1_alg».proof.Proof.TileProducts
import Idealize.ShloMosaic.Lib.Pipeline.Value
import Idealize.ShloMosaic.Lib.ValueLayout
import Idealize.ShloMosaic.Lib.Tactic

set_option maxRecDepth 16384

noncomputable section

open Idealize.ShloMosaic Idealize.ShloMosaic.TcCoe Idealize.SL.Sem

namespace Cert.KernelIdeal.Pieces

open Cert.KernelIdeal Cert.KernelIdeal.Gen Idealize.ShloMosaic.ValueIdx

variable {F : FTy → Type} [FloatOps F]

theorem zeros2 : (![0, 0] : Fin 2 → Nat) = fun _ => 0 := funext fun a => by fin_cases a <;> rfl
theorem zeros3 : (![0, 0, 0] : Fin 3 → Nat) = fun _ => 0 := funext fun a => by fin_cases a <;> rfl

/-- The 512 rows of the key block that the point's row tile reads. -/
abbrev rowTile (i : grid0.Coords) (x0 : Vec F S1x2048x128 .f32) : Vec F S1x512x128 .f32 :=
  View.ld x0 (Rect.unit (s := S1x2048x128) (k0_off1 i) S1x512x128.size (Facts₀.k0_off1_inb i))

/-! ## The cases' stores, read back -/

/-- At a batch's first row tile the scratch buffer is stored whole with the batch's memory tile. -/
theorem scratch_first (c : Dev nD) (i : grid0.Coords) (arg2 : Memref sig .tc .vmem S1x2048x128 .f32) (harg2 : arg2.IsWhole) (arg3 : Memref sig .tc .vmem S1x256x128 .f32) (harg3 : arg3.IsWhole) (arg4 : Memref sig .tc .vmem S128x256 .f32) (harg4 : arg4.IsWhole) (arg5 : Memref sig .tc .vmem S1x512x2048 .f32) (harg5 : arg5.IsWhole) (arg6 : Memref sig .tc .vmem S2048x128 .bf16) (harg6 : arg6.IsWhole) (hc0 : cond0_0 i)
    (x0 : Vec F S1x2048x128 .f32) (x1 : Vec F S1x256x128 .f32) (x2 : Vec F S128x256 .f32) :
    sout0_A_0 c i arg2 harg2 arg3 harg3 arg4 harg4 arg5 harg5 arg6 harg6 hc0 x0 x1 x2 = k0_pay1 x0 x2 x1 := by
  unfold sout0_A_0
  rw [View.read_writes_eq_canon _ _ _ (scover0_A_0 c i arg2 harg2 arg3 harg3 arg4 harg4 arg5 harg5 arg6 harg6 hc0 x0 x1 x2)]
  unfold kernelRun0_A
  dsimp only
  sl_unfold_words
  rw [View.canon_unit_zero zeros2]
  simp only [View.readAt_eq_ld, harg2.read_unread, harg3.read_unread, harg4.read_unread,
    View.ld_unit_zero (S := S1x2048x128) zeros3, View.ld_unit_zero (S := S128x256) zeros2,
    View.ld_unit_zero (S := S1x256x128) zeros3]

/-- … and the output block is the row tile against that freshly stored memory tile. -/
theorem out_first (c : Dev nD) (i : grid0.Coords) (arg2 : Memref sig .tc .vmem S1x2048x128 .f32) (harg2 : arg2.IsWhole) (arg3 : Memref sig .tc .vmem S1x256x128 .f32) (harg3 : arg3.IsWhole) (arg4 : Memref sig .tc .vmem S128x256 .f32) (harg4 : arg4.IsWhole) (arg5 : Memref sig .tc .vmem S1x512x2048 .f32) (harg5 : arg5.IsWhole) (arg6 : Memref sig .tc .vmem S2048x128 .bf16) (harg6 : arg6.IsWhole) (hc0 : cond0_0 i)
    (x0 : Vec F S1x2048x128 .f32) (x1 : Vec F S1x256x128 .f32) (x2 : Vec F S128x256 .f32) :
    out0_A_3 c i arg2 harg2 arg3 harg3 arg4 harg4 arg5 harg5 arg6 harg6 hc0 x0 x1 x2 = k0_pay2 (rowTile i x0) (k0_pay1 x0 x2 x1) := by
  unfold out0_A_3
  rw [View.read_writes_eq_canon _ _ _ (cover0_A_3 c i arg2 harg2 arg3 harg3 arg4 harg4 arg5 harg5 arg6 harg6 hc0 x0 x1 x2)]
  unfold kernelRun0_A
  dsimp only
  sl_unfold_words
  rw [View.canon_unit_zero zeros3, View.readCov_unit_zero (S := S2048x128) _ zeros2]
  simp only [View.readAt_eq_ld, harg2.read_unread, harg3.read_unread, harg4.read_unread,
    View.ld_unit_zero (S := S1x2048x128) zeros3, View.ld_unit_zero (S := S128x256) zeros2,
    View.ld_unit_zero (S := S1x256x128) zeros3]
  rfl

/-- At a later row tile of the batch the output block is the row tile against what the scratch buffer already held. -/
theorem out_later (c : Dev nD) (i : grid0.Coords) (arg2 : Memref sig .tc .vmem S1x2048x128 .f32) (harg2 : arg2.IsWhole) (arg3 : Memref sig .tc .vmem S1x256x128 .f32) (harg3 : arg3.IsWhole) (arg4 : Memref sig .tc .vmem S128x256 .f32) (harg4 : arg4.IsWhole) (arg5 : Memref sig .tc .vmem S1x512x2048 .f32) (harg5 : arg5.IsWhole) (arg6 : Memref sig .tc .vmem S2048x128 .bf16) (harg6 : arg6.IsWhole) (hc0 : ¬cond0_0 i)
    (x0 : Vec F S1x2048x128 .f32) (x1 : Vec F S1x256x128 .f32) (x2 : Vec F S128x256 .f32) (xs0 : Vec F S2048x128 .bf16) :
    out0_B_3 c i arg2 harg2 arg3 harg3 arg4 harg4 arg5 harg5 arg6 harg6 hc0 x0 x1 x2 xs0 = k0_pay2 (rowTile i x0) xs0 := by
  unfold out0_B_3
  rw [View.read_writes_eq_canon _ _ _ (cover0_B_3 c i arg2 harg2 arg3 harg3 arg4 harg4 arg5 harg5 arg6 harg6 hc0 x0 x1 x2 xs0)]
  unfold kernelRun0_B
  dsimp only
  sl_unfold_words
  rw [View.canon_unit_zero zeros3]
  simp only [View.readAt_eq_ld, harg2.read_unread, harg6.read_unread, View.ld_unit_zero (S := S2048x128) zeros2]
  rfl

/-! ## The payloads at an index, at the ideal instance -/

/-- The memory tile at `(l, d)`: the key block's row `l` against the weights, then against column `d` of the value block. -/
theorem memory_payload_apply (v14 : Vec Ideal S1x2048x128 .f32) (v17 : Vec Ideal S128x256 .f32) (v21 : Vec Ideal S1x256x128 .f32)
    (l : Fin 2048) (d : Fin 128) :
    k0_pay1 v14 v17 v21 (ix2 l d)
      = ∑ a : Fin 256, (∑ n : Fin 128, v14 (ix3 (0 : Fin 1) l n) * v17 (ix2 n a)) * v21 (ix3 (0 : Fin 1) a d) := by
  unfold k0_pay1
  rw [shapeCast_self, truncf_apply, Tiles.memory_tile_apply]
  refine Finset.sum_congr rfl fun a _ => ?_
  simp only [truncf_apply]
  rw [Tiles.scores_tile_apply, shapeCast_1ab_ab_apply]
  refine congrArg (· * _) (Finset.sum_congr rfl fun n _ => ?_)
  simp only [truncf_apply]
  rw [shapeCast_1ab_ab_apply, shapeCast_self]

/-- The output block at `(p, s)`: row `p` of the row tile against row `s` of the scratch buffer. -/
theorem readout_payload_apply (v6 : Vec Ideal S1x512x128 .f32) (v9 : Vec Ideal S2048x128 .bf16) (u : Fin 1) (p : Fin 512) (s : Fin 2048) :
    k0_pay2 v6 v9 (ix3 u p s) = ∑ n : Fin 128, v6 (ix3 (0 : Fin 1) p n) * v9 (ix2 s n) := by
  unfold k0_pay2
  rw [shapeCast_ab_1ab_apply, Tiles.readout_tile_apply]
  refine Finset.sum_congr rfl fun n _ => ?_
  simp only [truncf_apply]
  rw [shapeCast_1ab_ab_apply]

end Cert.KernelIdeal.Pieces

end
-- ==== Proof.Readout.lean ====
/-
  The mathematics of the holographic attention read-out, stated once over plain arrays of extended reals.

  With `key : [32, 2048, 128]`, `value : [32, 256, 128]` and a weight matrix `w : [128, 256]` (the weights already
  summed over their middle axis), per batch `b`:

    scores b l a = ∑ n, key[b, l, n] · w[n, a]
    memory b l d = ∑ a, scores b l a · value[b, a, d]
    readout b l r = ∑ n, key[b, l, n] · memory b r n

  and the result array holds `readout` at every index `(b, l, r)`. Both programs compute exactly these three nested sums
  (no distributive law is used, so nothing needs finiteness): the kernel block by block through three matrix products,
  keeping a batch's `memory` in a scratch buffer while it walks the four row tiles of that batch, the reference through
  three `dot_general`s.
-/
import Idealize.ShloMosaic.PureOps.Ideal
import Idealize.ShloMosaic.Lib.ValueIdx

noncomputable section

namespace Cert.Holo

open Idealize.ShloMosaic Idealize.ShloMosaic.ValueIdx

/-- The three argument layouts, as index types. -/
abbrev KeyIdx := (⟨3, ![32, 2048, 128]⟩ : Shape).Idx
abbrev ValIdx := (⟨3, ![32, 256, 128]⟩ : Shape).Idx
abbrev WIdx := (⟨2, ![128, 256]⟩ : Shape).Idx
abbrev OutIdx := (⟨3, ![32, 2048, 2048]⟩ : Shape).Idx

/-- A key row against the summed weights: one score per action. -/
def scores (key : KeyIdx → EReal) (w : WIdx → EReal) (b : Fin 32) (l : Fin 2048) (a : Fin 256) : EReal :=
  ∑ n : Fin 128, key (ix3 b l n) * w (ix2 n a)

/-- The scores against the value vectors: the memory vector of row `l`. -/
def memory (key : KeyIdx → EReal) (value : ValIdx → EReal) (w : WIdx → EReal) (b : Fin 32) (l : Fin 2048) (d : Fin 128) : EReal :=
  ∑ a : Fin 256, scores key w b l a * value (ix3 b a d)

/-- A key row against another row's memory vector. -/
def readout (key : KeyIdx → EReal) (value : ValIdx → EReal) (w : WIdx → EReal) (b : Fin 32) (l r : Fin 2048) : EReal :=
  ∑ n : Fin 128, key (ix3 b l n) * memory key value w b r n

/-- The whole result array. -/
def result (key : KeyIdx → EReal) (value : ValIdx → EReal) (w : WIdx → EReal) : OutIdx → EReal :=
  fun i => readout key value w (i 0) (i 1) (i 2)

theorem result_ix3 (key : KeyIdx → EReal) (value : ValIdx → EReal) (w : WIdx → EReal) (b : Fin 32) (l r : Fin 2048) :
    result key value w (ix3 b l r) = readout key value w b l r := rfl

end Cert.Holo

end
-- ==== Proof.BatchMemory.lean ====
/-
  The result array after the kernel's run is the readout of the argument arrays.

  The grid walks 32 batches × 4 row tiles; point `t` is batch `t / 4`, row tile `t % 4`. The key and value windows hold
  the whole batch at every point, the weight window the whole summed-weight matrix. The scratch buffer is stored at a
  batch's first row tile with the batch's memory tile and kept over the other three (an induction on the point, with the
  batch `t / 4` unchanged between the resets), so at every point the output block is rows `512 · (t % 4) …` of the
  batch's readout; the 128 output blocks tile the result array.
-/
import proofs.«174124_j86887188398971_1_alg».proof.Proof.Gen.KernelIdeal.Value
import proofs.«174124_j86887188398971_1_alg».proof.Proof.PointValues
import proofs.«174124_j86887188398971_1_alg».proof.Proof.Readout
import Idealize.ShloMosaic.Lib.Pipeline.Value
import Idealize.ShloMosaic.Lib.StableHlo.Run

set_option maxRecDepth 16384

noncomputable section

open Idealize.ShloMosaic Idealize.ShloMosaic.TcCoe Idealize.SL.Sem
open Idealize.ShloMosaic.Pipeline (Dat)

namespace Cert.KernelIdeal.Carried

open Cert.KernelIdeal Cert.KernelIdeal.Gen Cert.KernelIdeal.Pieces Idealize.ShloMosaic.ValueIdx

variable (m : (ℓ : Loc nD τ sig) → Buf (Elt Ideal) ℓ) (ρ : Dev nD → PrngReg)

/-! ## The arrays and the blocks, at their literal types -/

abbrev keyArr (c : Dev nD) : Vec Ideal S32x2048x128 .f32 := V m c main_arg0
abbrev valArr (c : Dev nD) : Vec Ideal S32x256x128 .f32 := V m c main_arg1
abbrev wArr (c : Dev nD) : Vec Ideal S128x256 .f32 := V m c main_v0
abbrev keyBlk (c : Dev nD) (t : Fin cfg0.N) : Vec Ideal S1x2048x128 .f32 := iblk m c 0 t
abbrev valBlk (c : Dev nD) (t : Fin cfg0.N) : Vec Ideal S1x256x128 .f32 := iblk m c 1 t
abbrev wBlk (c : Dev nD) (t : Fin cfg0.N) : Vec Ideal S128x256 .f32 := iblk m c 2 t

/-- The printed index maps and the row-tile coordinate, decided over the 128 points. -/
theorem idx_facts : ∀ t : Fin cfg0.N,
    win0_0.index t (0 : Fin 3) = t.val / 4 ∧ win0_0.index t (1 : Fin 3) = 0 ∧ win0_0.index t (2 : Fin 3) = 0
    ∧ win0_1.index t (0 : Fin 3) = t.val / 4 ∧ win0_1.index t (1 : Fin 3) = 0 ∧ win0_1.index t (2 : Fin 3) = 0
    ∧ win0_2.index t (0 : Fin 2) = 0 ∧ win0_2.index t (1 : Fin 2) = 0
    ∧ win0_3.index t (0 : Fin 3) = t.val / 4 ∧ win0_3.index t (1 : Fin 3) = t.val % 4 ∧ win0_3.index t (2 : Fin 3) = 0
    ∧ (grid0.coords t (1 : Fin 2)).val = t.val % 4 :=
  (by decide +kernel : ∀ t : Fin grid0.N, _)

/-- The batch a point belongs to. -/
def batchOf (t : Fin cfg0.N) : Fin 32 := ⟨t.val / 4, by have h := t.isLt; have hN : cfg0.N = 128 := N_0; omega⟩

/-- The batch of a position of the grid. -/
def batchAt (n : ℕ) (h : n < cfg0.N) : Fin 32 := batchOf ⟨n, h⟩

/-- The key window's block at a point is the point's batch of the key array. -/
theorem keyBlk_eq (c : Dev nD) (t : Fin cfg0.N) :
    keyBlk m c t = fun j => keyArr m c (ix3 (batchOf t) (j 1) (j 2)) := by
  obtain ⟨e0, e1, e2, -⟩ := idx_facts t
  funext j
  show iblk m c 0 t j = _
  unfold iblk
  rw [View.read_apply]
  show V m c main_arg0 _ = V m c main_arg0 _
  congr 1
  funext a
  apply Fin.ext
  match a with
  | ⟨0, _⟩ => show win0_0.index t (0 : Fin 3) * 1 + 1 * (j 0).val = t.val / 4; have hj : (j 0).val < 1 := (j 0).isLt; omega
  | ⟨1, _⟩ => show win0_0.index t (1 : Fin 3) * 2048 + 1 * (j 1).val = (j 1).val; omega
  | ⟨2, _⟩ => show win0_0.index t (2 : Fin 3) * 128 + 1 * (j 2).val = (j 2).val; omega

/-- The value window's block at a point is the point's batch of the value array. -/
theorem valBlk_eq (c : Dev nD) (t : Fin cfg0.N) :
    valBlk m c t = fun j => valArr m c (ix3 (batchOf t) (j 1) (j 2)) := by
  obtain ⟨-, -, -, e0, e1, e2, -⟩ := idx_facts t
  funext j
  show iblk m c 1 t j = _
  unfold iblk
  rw [View.read_apply]
  show V m c main_arg1 _ = V m c main_arg1 _
  congr 1
  funext a
  apply Fin.ext
  match a with
  | ⟨0, _⟩ => show win0_1.index t (0 : Fin 3) * 1 + 1 * (j 0).val = t.val / 4; have hj : (j 0).val < 1 := (j 0).isLt; omega
  | ⟨1, _⟩ => show win0_1.index t (1 : Fin 3) * 256 + 1 * (j 1).val = (j 1).val; omega
  | ⟨2, _⟩ => show win0_1.index t (2 : Fin 3) * 128 + 1 * (j 2).val = (j 2).val; omega

/-- The weight window's block is the whole summed-weight matrix at every point. -/
theorem wBlk_eq (c : Dev nD) (t : Fin cfg0.N) : wBlk m c t = wArr m c := by
  obtain ⟨-, -, -, -, -, -, e0, e1, -⟩ := idx_facts t
  funext j
  show iblk m c 2 t j = _
  unfold iblk
  rw [View.read_apply]
  show V m c main_v0 _ = V m c main_v0 _
  congr 1
  funext a
  apply Fin.ext
  match a with
  | ⟨0, _⟩ => show win0_2.index t (0 : Fin 2) * 128 + 1 * (j 0).val = (j 0).val; omega
  | ⟨1, _⟩ => show win0_2.index t (1 : Fin 2) * 256 + 1 * (j 1).val = (j 1).val; omega

/-- The row tile of a block reads its rows from `512 · (row-tile coordinate)` on. -/
theorem rowTile_apply (i : grid0.Coords) (x0 : Vec Ideal S1x2048x128 .f32) (u : Fin 1) (p : Fin 512) (n : Fin 128)
    (q : ℕ) (hq : (i (1 : Fin 2)).val = q) (hlt : 512 * q + p.val < 2048) :
    rowTile i x0 (ix3 u p n) = x0 (ix3 (0 : Fin 1) ⟨512 * q + p.val, hlt⟩ n) := by
  show x0 _ = x0 _
  congr 1
  funext a
  apply Fin.ext
  have ho := k0_off1_eq i
  match a with
  | ⟨0, _⟩ => show k0_off1 i (0 : Fin 3) + 1 * u.val = 0; rw [ho]; have := u.isLt; show 0 + 1 * u.val = 0; omega
  | ⟨1, _⟩ => show k0_off1 i (1 : Fin 3) + 1 * p.val = 512 * q + p.val; rw [ho]; show 512 * (i 1).val + 1 * p.val = _; rw [hq]; omega
  | ⟨2, _⟩ => show k0_off1 i (2 : Fin 3) + 1 * n.val = n.val; rw [ho]; show 0 + 1 * n.val = n.val; omega

/-! ## The scratch buffer holds the batch's memory tile -/

/-- The memory tile of batch `b`, as contents of the scratch buffer. -/
def memTile (c : Dev nD) (b : Fin 32) : Vec Ideal S2048x128 .bf16 :=
  fun j => Cert.Holo.memory (keyArr m c) (valArr m c) (wArr m c) b (j 0) (j 1)

/-- What a batch's first row tile stores into the scratch buffer is the batch's memory tile. -/
theorem memory_payload_eq (c : Dev nD) (t : Fin cfg0.N) :
    k0_pay1 (keyBlk m c t) (wBlk m c t) (valBlk m c t) = memTile m c (batchOf t) := by
  funext j
  obtain ⟨l, d, rfl⟩ : ∃ (l : Fin 2048) (d : Fin 128), j = ix2 l d := ⟨j 0, j 1, eq_ix2 j⟩
  rw [memory_payload_apply, keyBlk_eq, valBlk_eq, wBlk_eq]
  rfl

/-- After every point the scratch buffer holds the memory tile of the point's batch. -/
theorem scratch_eq (c : Dev nD) : ∀ (n : ℕ) (h : n < cfg0.N), (outsAt0 m c n h).2 = memTile m c (batchAt n h)
  | 0, h => by
    rw [outsAt0_A m c ⟨0, h⟩ rfl]
    dsimp only
    refine (scratch_first (F := Ideal) c (grid0.coords ⟨0, h⟩) (ms0_0 ⟨0, h⟩) (hs0_0 ⟨0, h⟩) (ms0_1 ⟨0, h⟩) (hs0_1 ⟨0, h⟩) (ms0_2 ⟨0, h⟩) (hs0_2 ⟨0, h⟩) (ms0_3 ⟨0, h⟩) (hs0_3 ⟨0, h⟩) scM0_0 (Memref.isWhole_whole _) _ (iblk m c 0 ⟨0, h⟩) (iblk m c 1 ⟨0, h⟩) (iblk m c 2 ⟨0, h⟩)).trans ?_
    exact memory_payload_eq m c ⟨0, h⟩
  | n + 1, h => by
    have hN : cfg0.N = 128 := N_0
    by_cases h0 : (n + 1) % 4 = 0
    · rw [outsAt0_A m c ⟨n + 1, h⟩ h0]
      dsimp only
      refine (scratch_first (F := Ideal) c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) scM0_0 (Memref.isWhole_whole _) _ (iblk m c 0 ⟨n + 1, h⟩) (iblk m c 1 ⟨n + 1, h⟩) (iblk m c 2 ⟨n + 1, h⟩)).trans ?_
      exact memory_payload_eq m c ⟨n + 1, h⟩
    · rw [outsAt0_B m c ⟨n + 1, h⟩ h0]
      dsimp only
      show (outsAt0 m c n _).2 = _
      rw [scratch_eq c n]
      refine congrArg (memTile m c) (Fin.ext ?_)
      show n / 4 = (n + 1) / 4
      omega

/-! ## The output block is rows of the batch's readout -/

/-- The result array: the readout of the arrays as the region finds them. -/
def resultArr (c : Dev nD) : Buf (Elt Ideal) ((c : Thread nD τ).loc main_v1) :=
  Cert.Holo.result (keyArr m c) (valArr m c) (wArr m c)

/-- The row tile against the batch's memory tile, at `(p, s)`: the readout at row `512 · (t % 4) + p`, column `s`. -/
theorem readout_payload_eq (c : Dev nD) (t : Fin cfg0.N) (u : Fin 1) (p : Fin 512) (s : Fin 2048)
    (hlt : 512 * (t.val % 4) + p.val < 2048) :
    k0_pay2 (rowTile (grid0.coords t) (keyBlk m c t)) (memTile m c (batchOf t)) (ix3 u p s)
      = Cert.Holo.readout (keyArr m c) (valArr m c) (wArr m c) (batchOf t) ⟨512 * (t.val % 4) + p.val, hlt⟩ s := by
  obtain ⟨-, -, -, -, -, -, -, -, -, -, -, ec⟩ := idx_facts t
  rw [readout_payload_apply]
  unfold Cert.Holo.readout
  refine Finset.sum_congr rfl fun n _ => ?_
  rw [rowTile_apply (grid0.coords t) (keyBlk m c t) 0 p n (t.val % 4) ec hlt, keyBlk_eq]
  rfl

/-- What the output's staging buffer holds after point `t`, in both cases. -/
theorem out_eq (c : Dev nD) (t : Fin cfg0.N) :
    (outsAt0 m c t.val t.isLt).1 = k0_pay2 (rowTile (grid0.coords t) (keyBlk m c t)) (memTile m c (batchOf t)) := by
  have hN : cfg0.N = 128 := N_0
  by_cases h0 : t.val % 4 = 0
  · rw [outsAt0_A m c t h0]
    dsimp only
    refine (out_first (F := Ideal) c (grid0.coords t) (ms0_0 t) (hs0_0 t) (ms0_1 t) (hs0_1 t) (ms0_2 t) (hs0_2 t) (ms0_3 t) (hs0_3 t) scM0_0 (Memref.isWhole_whole _) _ (iblk m c 0 t) (iblk m c 1 t) (iblk m c 2 t)).trans ?_
    exact congrArg (k0_pay2 (rowTile (grid0.coords t) (keyBlk m c t))) (memory_payload_eq m c t)
  · rw [outsAt0_B m c t h0]
    dsimp only
    refine (out_later (F := Ideal) c (grid0.coords t) (ms0_0 t) (hs0_0 t) (ms0_1 t) (hs0_1 t) (ms0_2 t) (hs0_2 t) (ms0_3 t) (hs0_3 t) scM0_0 (Memref.isWhole_whole _) _ (iblk m c 0 t) (iblk m c 1 t) (iblk m c 2 t) _).trans ?_
    refine congrArg (k0_pay2 (rowTile (grid0.coords t) (keyBlk m c t))) ?_
    rw [scratch_eq m c (t.val - 1)]
    refine congrArg (memTile m c) (Fin.ext ?_)
    show (t.val - 1) / 4 = t.val / 4
    omega

/-- The point's output block at a block index `j` is the result array at the index `j` sits at: batch `t / 4`, row
    `512 · (t % 4) + j₁`, column `j₂`. -/
theorem block_apply (c : Dev nD) (t : Fin cfg0.N) (j : S1x512x2048.Idx) (i : S32x2048x2048.Idx)
    (h0 : (i 0).val = t.val / 4) (h1 : (i 1).val = 512 * (t.val % 4) + (j 1).val) (h2 : (i 2).val = (j 2).val) :
    k0_pay2 (rowTile (grid0.coords t) (keyBlk m c t)) (memTile m c (batchOf t)) j = resultArr m c i := by
  obtain ⟨u, p, s, rfl⟩ : ∃ (u : Fin 1) (p : Fin 512) (s : Fin 2048), j = ix3 u p s := ⟨j 0, j 1, j 2, eq_ix3 j⟩
  obtain ⟨b, l, r, rfl⟩ : ∃ (b : Fin 32) (l r : Fin 2048), i = ix3 b l r := ⟨i 0, i 1, i 2, eq_ix3 i⟩
  have h1' : l.val = 512 * (t.val % 4) + p.val := h1
  have hlt : 512 * (t.val % 4) + p.val < 2048 := by have := l.isLt; omega
  rw [readout_payload_eq m c t u p s hlt]
  show _ = Cert.Holo.readout (keyArr m c) (valArr m c) (wArr m c) b l r
  have eb : batchOf t = b := Fin.ext h0.symm
  have el : (⟨512 * (t.val % 4) + p.val, hlt⟩ : Fin 2048) = l := Fin.ext h1'.symm
  have es : s = r := Fin.ext h2.symm
  rw [eb, el, es]

/-- WHAT POINT `t` WRITES BACK is block `t` of the result array. -/
theorem flushed_eq (c : Dev nD) (t : Fin cfg0.N) :
    (dats m 0 c).flushed 3 t = ((cfg0.win 3).blk t).view.read (Elt Ideal) (resultArr m c) := by
  obtain ⟨-, -, -, -, -, -, -, -, e0, e1, e2, -⟩ := idx_facts t
  rw [Cert.KernelIdeal.Value.flushed3, out_eq]
  funext j
  have hj0 : (j 0).val < 1 := (j 0).isLt
  exact block_apply m c t j (((cfg0.win 3).blk t).view.emb j)
    (by show win0_3.index t (0 : Fin 3) * 1 + 1 * (j 0).val = t.val / 4; omega)
    (by show win0_3.index t (1 : Fin 3) * 512 + 1 * (j 1).val = 512 * (t.val % 4) + (j 1).val; omega)
    (by show win0_3.index t (2 : Fin 3) * 2048 + 1 * (j 2).val = (j 2).val; omega)

/-- An index of the result array is in point `t`'s block iff each coordinate is in the block's range on its axis. -/
theorem mem_blk (t : Fin cfg0.N) (i : S32x2048x2048.Idx) :
    i ∈ ((cfg0.win 3).blk t).view.set ↔ ∀ a : Fin 3, win0_3.index t a * S1x512x2048.size a ≤ (i a).val ∧ (i a).val < win0_3.index t a * S1x512x2048.size a + S1x512x2048.size a := by
  show i ∈ ((View.whole main_v1).slice (win0_3.rect t)).set ↔ _
  rw [View.set_slice_whole, Rect.mem_set_unit]
  exact Iff.rfl

/-- Every index `(b, l, r)` lies in the block of point `4 b + l / 512`. -/
theorem cover (i : S32x2048x2048.Idx) : ∃ t : Fin cfg0.N, (cfg0.win 3).flush t = true ∧ i ∈ ((cfg0.win 3).blk t).view.set := by
  have hN : cfg0.N = 128 := N_0
  have hi0 : (i 0).val < 32 := (i 0).isLt
  have hi1 : (i 1).val < 2048 := (i 1).isLt
  have hi2 : (i 2).val < 2048 := (i 2).isLt
  refine ⟨⟨4 * (i 0).val + (i 1).val / 512, by omega⟩, flush0_3 _, ?_⟩
  rw [mem_blk]
  obtain ⟨-, -, -, -, -, -, -, -, e0, e1, e2, -⟩ := idx_facts ⟨4 * (i 0).val + (i 1).val / 512, by omega⟩
  intro a
  match a with
  | ⟨0, _⟩ => show win0_3.index _ (0 : Fin 3) * 1 ≤ (i 0).val ∧ (i 0).val < win0_3.index _ (0 : Fin 3) * 1 + 1; rw [e0]; dsimp only; omega
  | ⟨1, _⟩ => show win0_3.index _ (1 : Fin 3) * 512 ≤ (i 1).val ∧ (i 1).val < win0_3.index _ (1 : Fin 3) * 512 + 512; rw [e1]; dsimp only; omega
  | ⟨2, _⟩ => show win0_3.index _ (2 : Fin 3) * 2048 ≤ (i 2).val ∧ (i 2).val < win0_3.index _ (2 : Fin 3) * 2048 + 2048; rw [e2]; omega

/-- THE ARRAY after the run: the readout. -/
theorem final (c : Dev nD) : (dats m 0 c).arrAt 3 cfg0.N = resultArr m c :=
  (dats m 0 c).arrAt_eq_of_cover 3 (resultArr m c) (fun t _ => flushed_eq m c t) cover

/-! ## The host's sum of the weights, and the run -/

/-- The summed weights as the region finds them: the host's sum over the weights' middle axis, from the zero. -/
theorem wArr_eq (c : Dev nD) :
    wArr m c = Host.reduceAdd (m ((c : Thread nD τ).loc main_arg2)) (constant (F := Ideal) S_ .f32 0x00000000#32) Facts₀.reducesTo_S128x64x256_S128x256_d1 Facts₀.h_S_ := by
  show V m c main_v0 = _
  dsimp only [V, hostOps0]
  after_results

theorem keyArr_eq (c : Dev nD) : keyArr m c = m ((c : Thread nD τ).loc main_arg0) := V_main_arg0 m c
theorem valArr_eq (c : Dev nD) : valArr m c = m ((c : Thread nD τ).loc main_arg1) := V_main_arg1 m c

/-- The run, read: the result array at the readout of the arguments, the arguments unchanged. -/
theorem run : θ_run defs (onTc (τ := τ) (main (F := Ideal))) ⟨m, fun _ => 0, ρ⟩ fun r => ∀ c : Dev nD,
      r.2.mem ((c : Thread nD τ).loc main_v1) = Cert.Holo.result (m ((c : Thread nD τ).loc main_arg0)) (m ((c : Thread nD τ).loc main_arg1))
          (Host.reduceAdd (m ((c : Thread nD τ).loc main_arg2)) (constant (F := Ideal) S_ .f32 0x00000000#32) Facts₀.reducesTo_S128x64x256_S128x256_d1 Facts₀.h_S_)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans ((final m c).trans (by
      unfold resultArr
      rw [keyArr_eq, valArr_eq, wArr_eq])), (h c).2⟩)
    (Cert.KernelIdeal.Value.run_blocks m ρ)

end Cert.KernelIdeal.Carried

end
-- ==== Proof.RefReadout.lean ====
/-
  The reference computes the readout: its three `dot_general`s, read one index at a time, are the three nested sums of
  `Cert.Holo` over the same summed weights (the host sum over the weights' middle axis is kept as one array on both
  sides and never opened).
-/
import proofs.«174124_j86887188398971_1_alg».proof.Proof.Gen.ReferenceIdeal.Read
import proofs.«174124_j86887188398971_1_alg».proof.Proof.Readout

noncomputable section

namespace Cert.ReferenceIdeal.RefValue

open Cert.ReferenceIdeal Cert.ReferenceIdeal.Gen Cert.ReferenceIdeal.Read Idealize.ShloMosaic Idealize.ShloMosaic.ValueIdx

/-- The operand indices the generated reading names are the coordinate triples and pairs of the specification. -/
theorem lidx3 (b : Fin 32) (l r : Fin 2048) (n : Fin 128) : lidx_main_v3 (ix3 b l r) n = ix3 b l n :=
  funext fun a => Fin.ext (by match a with | ⟨0, _⟩ => rfl | ⟨1, _⟩ => rfl | ⟨2, _⟩ => rfl)
theorem ridx3 (b : Fin 32) (l r : Fin 2048) (n : Fin 128) : ridx_main_v3 (ix3 b l r) n = ix3 b r n :=
  funext fun a => Fin.ext (by match a with | ⟨0, _⟩ => rfl | ⟨1, _⟩ => rfl | ⟨2, _⟩ => rfl)
theorem lidx2 (b : Fin 32) (r : Fin 2048) (n : Fin 128) (a : Fin 256) : lidx_main_v2 (ix3 b r n) a = ix3 b r a :=
  funext fun x => Fin.ext (by match x with | ⟨0, _⟩ => rfl | ⟨1, _⟩ => rfl | ⟨2, _⟩ => rfl)
theorem ridx2 (b : Fin 32) (r : Fin 2048) (n : Fin 128) (a : Fin 256) : ridx_main_v2 (ix3 b r n) a = ix3 b a n :=
  funext fun x => Fin.ext (by match x with | ⟨0, _⟩ => rfl | ⟨1, _⟩ => rfl | ⟨2, _⟩ => rfl)
theorem lidx1 (b : Fin 32) (r : Fin 2048) (a : Fin 256) (n : Fin 128) : lidx_main_v1 (ix3 b r a) n = ix3 b r n :=
  funext fun x => Fin.ext (by match x with | ⟨0, _⟩ => rfl | ⟨1, _⟩ => rfl | ⟨2, _⟩ => rfl)
theorem ridx1 (b : Fin 32) (r : Fin 2048) (a : Fin 256) (n : Fin 128) : ridx_main_v1 (ix3 b r a) n = ix2 n a :=
  funext fun x => Fin.ext (by match x with | ⟨0, _⟩ => rfl | ⟨1, _⟩ => rfl)

/-- The reference's result is the readout of its arguments, the weights summed over their middle axis by the host. -/
theorem reference_is_readout (x0 : (⟨S32x2048x128, .f32⟩ : BufTy).Contents (Elt Ideal)) (x1 : (⟨S32x256x128, .f32⟩ : BufTy).Contents (Elt Ideal))
    (x2 : (⟨S128x64x256, .f32⟩ : BufTy).Contents (Elt Ideal)) :
    val_main_v3 (F := Ideal) x0 x1 x2 = Cert.Holo.result x0 x1 (val_main_v0 (F := Ideal) x2) := by
  funext i
  obtain ⟨b, l, r, rfl⟩ : ∃ (b : Fin 32) (l r : Fin 2048), i = ix3 b l r := ⟨i 0, i 1, i 2, eq_ix3 i⟩
  rw [val_main_v3_apply, Cert.Holo.result_ix3]
  unfold Cert.Holo.readout
  refine Finset.sum_congr rfl fun n _ => ?_
  rw [lidx3, ridx3, val_main_v2_apply]
  refine congrArg (x0 (ix3 b l n) * ·) ?_
  unfold Cert.Holo.memory
  refine Finset.sum_congr rfl fun a _ => ?_
  rw [lidx2, ridx2, val_main_v1_apply]
  refine congrArg (· * x1 (ix3 b a n)) ?_
  unfold Cert.Holo.scores
  refine Finset.sum_congr rfl fun n' _ => ?_
  rw [lidx1, ridx1]

end Cert.ReferenceIdeal.RefValue

end
-- ==== Proof.lean ====
/-
  The holographic attention read-out kernel against its reference, over the extended reals.

  Both programs sum the weights over their middle axis on the host and then compute, per batch, three nested sums of
  products: the scores of each key row against the summed weights, the memory vector of each row (scores against the
  value vectors), and the readout of each key row against every row's memory vector (`Cert.Holo`, Proof/Readout.lean).
  The kernel computes a batch's memory tile once, at the batch's first row tile, keeps it in a scratch buffer over the
  batch's four row tiles, and writes the readout block by block (Proof/PointValues.lean, Proof/BatchMemory.lean); the
  reference computes the same sums with three `dot_general`s (Proof/RefReadout.lean). The two results are the same
  function of the arguments term by term: no sum is regrouped and no product distributed, so the precondition is not
  used for the value. The ideal pass rewrote nothing, so the kernel's idealization is its own text.
-/
import proofs.«174124_j86887188398971_1_alg».proof.Defs
import proofs.«174124_j86887188398971_1_alg».proof.Proof.Gen.Kernel
import proofs.«174124_j86887188398971_1_alg».proof.Proof.Gen.Kernel.Skeleton
import proofs.«174124_j86887188398971_1_alg».proof.Proof.Gen.Kernel.Launch
import proofs.«174124_j86887188398971_1_alg».proof.Proof.Gen.Kernel.Points
import proofs.«174124_j86887188398971_1_alg».proof.Proof.Gen.Kernel.Frame
import proofs.«174124_j86887188398971_1_alg».proof.Proof.Gen.KernelIdeal
import proofs.«174124_j86887188398971_1_alg».proof.Proof.Gen.KernelIdeal.Skeleton
import proofs.«174124_j86887188398971_1_alg».proof.Proof.Gen.KernelIdeal.Launch
import proofs.«174124_j86887188398971_1_alg».proof.Proof.Gen.KernelIdeal.Points
import proofs.«174124_j86887188398971_1_alg».proof.Proof.Gen.KernelIdeal.Frame
import proofs.«174124_j86887188398971_1_alg».proof.Proof.Gen.ReferenceIdeal
import proofs.«174124_j86887188398971_1_alg».proof.Proof.Gen.Pre_finite_inputs
import proofs.«174124_j86887188398971_1_alg».proof.Proof.Gen.KernelIdeal.Value
import proofs.«174124_j86887188398971_1_alg».proof.Proof.Gen.ReferenceIdeal.Run
import proofs.«174124_j86887188398971_1_alg».proof.Proof.Gen.ReferenceIdeal.Read
import proofs.«174124_j86887188398971_1_alg».proof.Proof.BatchMemory
import proofs.«174124_j86887188398971_1_alg».proof.Proof.RefReadout
import Idealize.ShloMosaic.Adequacy
import Idealize.ShloMosaic.Init

noncomputable section

namespace Cert.Proof

open Idealize.ShloMosaic Idealize.SL.Sem

/-- The kernel as printed runs to the end, nothing faulting, its arguments unchanged. -/
theorem frame_kernel : Cert.frame_Kernel := fun m ρ _ => Cert.Kernel.Gen.frame m ρ

/-- So does its reading over the extended reals. -/
theorem frame_kernel_ideal : Cert.frame_KernelIdeal := fun m ρ _ => Cert.KernelIdeal.Gen.frame m ρ

/-- The reference is five host operations: its run, with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- From arguments that agree, the kernel's result array and the reference's are both the readout of those arguments
    over the host's sum of the weights. -/
theorem algebraic : Cert.algebraic_KernelIdeal_ReferenceIdeal := by
  intro m ρ m' ρ' _ hagree
  refine ⟨_, Cert.KernelIdeal.Carried.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v3_eq, Cert.ReferenceIdeal.RefValue.reference_is_readout,
    (hagree c).1, (hagree c).2.1, (hagree c).2.2]
  rfl

theorem claim : Cert.Claim := ⟨Cert.Kernel.Gen.facts, Cert.KernelIdeal.Gen.facts, Cert.ReferenceIdeal.Gen.facts, Cert.Pre_finite_inputs.Gen.facts,
  frame_kernel, frame_kernel_ideal, frame_reference, trivial, algebraic⟩

end Cert.Proof

end
